-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S352256 : Shape := ⟨1, ![352256]⟩
abbrev S11008x4096 : Shape := ⟨2, ![11008, 4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S352256 : S_.BroadcastsInDim S352256 (![] : Fin 0 → Fin S352256.rank)
  reducesTo_S352256_S_d0 : S352256.ReducesTo [0] S_

variable [Facts]

def fn {F : FTy → Type} [FloatOps F] (main_arg0 : FVec F S32x4096 .f32) (main_arg1 : FVec F S352256 .f32) (main_arg2 : IVec S11008x4096 32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S352256 .f32 := Host.absf main_arg1
  let main_cst_0 : FVec F S_ .f32 := constant S_ .f32 0x7F800000#32
  let main_v5 : FVec F S352256 .f32 := broadcastInDim S352256 ![] bcast_S_S352256 main_cst_0
  let main_v6 : IVec S352256 1 := cmpf .olt main_v4 main_v5
  let main_c_1 : IVec S_ 1 := constantI S_ 1 1#1
  let main_v7 : IVec S_ 1 := (fun x v => Host.reduce IntOp.andi x v reducesTo_S352256_S_d0 h_S_) main_v6 main_c_1
  let main_v8 : IVec S_ 1 := andi main_v3 main_v7
  main_v8
-- ==== Kernel.lean ====
abbrev S32x4096 : Shape := ⟨2, ![32, 4096]⟩
abbrev S352256 : Shape := ⟨1, ![352256]⟩
abbrev S11008x4096 : Shape := ⟨2, ![11008, 4096]⟩
abbrev S11008x32 : Shape := ⟨2, ![11008, 32]⟩
abbrev S32x11008 : Shape := ⟨2, ![32, 11008]⟩
abbrev S256x4096 : Shape := ⟨2, ![256, 4096]⟩
abbrev S256x32 : Shape := ⟨2, ![256, 32]⟩
abbrev S32x256 : Shape := ⟨2, ![32, 256]⟩
abbrev S256x32x128 : Shape := ⟨3, ![256, 32, 128]⟩
abbrev S256x32x1 : Shape := ⟨3, ![256, 32, 1]⟩

abbrev nBuf : Space → Nat
  | .hbm => 5
  | .vmem => 7
  | .smem => 0
  | _ => 0

abbrev bufTy : (tb : Table) → Fin (tcTables nBuf tb) → BufTy
  | .hbm, ⟨0, _⟩ => ⟨S32x4096, .f32⟩
  | .hbm, ⟨1, _⟩ => ⟨S352256, .f32⟩
  | .hbm, ⟨2, _⟩ => ⟨S11008x4096, .i32⟩
  | .hbm, ⟨3, _⟩ => ⟨S11008x32, .f32⟩
  | .hbm, ⟨4, _⟩ => ⟨S32x11008, .f32⟩
  | .local _ .vmem, ⟨0, _⟩ => ⟨S32x4096, .f32⟩
  | .local _ .vmem, ⟨1, _⟩ => ⟨S256x4096, .i32⟩
  | .local _ .vmem, ⟨2, _⟩ => ⟨S256x4096, .i32⟩
  | .local _ .vmem, ⟨3, _⟩ => ⟨S256x32, .f32⟩
  | .local _ .vmem, ⟨4, _⟩ => ⟨S256x32, .f32⟩
  | .local _ .vmem, ⟨5, _⟩ => ⟨S32x256, .f32⟩
  | .local _ .vmem, ⟨6, _⟩ => ⟨S32x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S352256_S11008x32 : S352256.ShapeCasts S11008x32
  inb_S32x4096_S32x4096_0_0 : ∀ a, (![0, 0] : Fin 2 → Nat) a + S32x4096.size a ≤ S32x4096.size a
  h_S32x4096 : 0 < S32x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S32x256_S32x256_0_0 : ∀ a, (![0, 0] : Fin 2 → Nat) a + S32x256.size a ≤ S32x256.size a
  h_S32x256 : 0 < S32x256.numel
  dot_S32x4096_S256x4096_S32x256_1_1_0_0_n_n_wf : DotDims.WF S32x4096 S256x4096 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x11008.size a
  hwx0_3 : ∀ i : grid0.Coords, EltTy.bits .f32 = 32 ∨ (Rect.block (s := S32x11008) S32x256.size (cc0_transform_3 i) (hinb0_3 i)).WholeWords (EltTy.packing .f32)

variable [Facts₀]

def dot_S32x4096_S256x4096_S32x256_1_1_0_0_n_n : DotDims S32x4096 S256x4096 S32x256 where
  lhsContracting := [1]
  rhsContracting := [1]
  lhsNonContracting := [0]
  rhsNonContracting := [0]
  lhsBatch := []
  rhsBatch := []
  wf := dot_S32x4096_S256x4096_S32x256_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096 : Shape := ⟨2, ![32, 4096]⟩
abbrev S352256 : Shape := ⟨1, ![352256]⟩
abbrev S11008x4096 : Shape := ⟨2, ![11008, 4096]⟩
abbrev S11008x32x128 : Shape := ⟨3, ![11008, 32, 128]⟩
abbrev S11008x32 : Shape := ⟨2, ![11008, 32]⟩
abbrev S11008x32x1 : Shape := ⟨3, ![11008, 32, 1]⟩
abbrev S4096x11008 : Shape := ⟨2, ![4096, 11008]⟩
abbrev S32x11008 : Shape := ⟨2, ![32, 11008]⟩

abbrev nBuf : Space → Nat
  | .hbm => 12
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S352256, .f32⟩
  | .hbm, ⟨2, _⟩ => ⟨S11008x4096, .i32⟩
  | .hbm, ⟨3, _⟩ => ⟨S11008x4096, .f32⟩
  | .hbm, ⟨4, _⟩ => ⟨S11008x32x128, .f32⟩
  | .hbm, ⟨5, _⟩ => ⟨S11008x32, .f32⟩
  | .hbm, ⟨6, _⟩ => ⟨S11008x32x1, .f32⟩
  | .hbm, ⟨7, _⟩ => ⟨S11008x32x128, .f32⟩
  | .hbm, ⟨8, _⟩ => ⟨S11008x32x128, .f32⟩
  | .hbm, ⟨9, _⟩ => ⟨S11008x4096, .f32⟩
  | .hbm, ⟨10, _⟩ => ⟨S4096x11008, .f32⟩
  | .hbm, ⟨11, _⟩ => ⟨S32x11008, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  shapeCasts_S11008x4096_S11008x32x128 : S11008x4096.ShapeCasts S11008x32x128
  shapeCasts_S352256_S11008x32 : S352256.ShapeCasts S11008x32
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  dot_S32x4096_S4096x11008_S32x11008_1_0_0_1_n_n_wf : DotDims.WF S32x4096 S4096x11008 S32x11008 [1] [0] [0] [1] [] []

variable [Facts₀]

def dot_S32x4096_S4096x11008_S32x11008_1_0_0_1_n_n : DotDims S32x4096 S4096x11008 S32x11008 where
  lhsContracting := [1]
  rhsContracting := [0]
  lhsNonContracting := [0]
  rhsNonContracting := [1]
  lhsBatch := []
  rhsBatch := []
  wf := dot_S32x4096_S4096x11008_S32x11008_1_0_0_1_n_n_wf

class Facts : Prop extends Facts₀ where

variable [Facts]
-- ==== Proof.LibTransposedRhsDot.lean ====
/-
  A two-dimensional contraction whose right operand is contracted on its LAST axis, read at one element over the
  extended reals.

  For the dimension numbers of an [M, K] by [N, K] product (the left operand's axis 1 contracted against the right
  operand's axis 1, no batch axis), entry (p, q) of the product is the sum over k of lhs (p, k) · rhs (q, k): the
  product of the left matrix with the TRANSPOSE of the right one. This holds of a kernel's matrix product into a zero
  accumulator and of the host's dot_general alike, whatever the precision attribute: at the extended reals both are the
  textbook contraction. Generic in the three extents.
-/
import Idealize.ShloMosaic.PureOps.Ideal.Laws
import Idealize.ShloMosaic.Lib.ValueIdx

noncomputable section

namespace Cert.Lib.TransposedRhsDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.transposedRhs M K N).contr.Idx) :
    ((DotDims.transposedRhs M K N).lhsIdx i r 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Axis 1 of the left operand is the contracted one: it reads the contraction position. -/
theorem lhs_axis1 (i : (⟨2, ![M, N]⟩ : Shape).Idx) (r : (DotDims.transposedRhs M K N).contr.Idx) :
    ((DotDims.transposedRhs M K N).lhsIdx i r 1).val = (r ⟨0, Nat.one_pos⟩).val :=
  (DotDims.transposedRhs M K N).lhsIdx_val_of_single rfl i r

/-- Axis 0 of the right operand is free: it reads the output's COLUMN coordinate. -/
theorem rhs_axis0 (i : (⟨2, ![M, N]⟩ : Shape).Idx) (r : (DotDims.transposedRhs M K N).contr.Idx) :
    ((DotDims.transposedRhs M K N).rhsIdx i r 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- Axis 1 of the right operand is the contracted one. -/
theorem rhs_axis1 (i : (⟨2, ![M, N]⟩ : Shape).Idx) (r : (DotDims.transposedRhs M K N).contr.Idx) :
    ((DotDims.transposedRhs M K N).rhsIdx i r 1).val = (r ⟨0, Nat.one_pos⟩).val :=
  (DotDims.transposedRhs M K N).rhsIdx_val_of_single rfl i r

/-- The contraction's sum over its one-axis index shape, re-indexed by that axis' coordinate: the sum over
    `k : Fin K` of lhs (p, k) · rhs (q, k). -/
theorem sum_eq (lhs : (⟨2, ![M, K]⟩ : Shape).Idx → EReal) (rhs : (⟨2, ![N, K]⟩ : Shape).Idx → EReal)
    (p : Fin M) (q : Fin N) :
    (∑ r : (DotDims.transposedRhs M K N).contr.Idx,
        lhs ((DotDims.transposedRhs M K N).lhsIdx (ix2 p q) r) * rhs ((DotDims.transposedRhs M K N).rhsIdx (ix2 p q) r))
      = ∑ k : Fin K, lhs (ix2 p k) * rhs (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_axis0 M K N _ _
      | ⟨1, _⟩ => exact (rhs_axis1 M K N _ _).trans hk)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) := by
  rw [Ideal.dotGeneral_apply]
  exact sum_eq M K N lhs rhs p q

end Cert.Lib.TransposedRhsDot

end
-- ==== Proof.TileValue.lean ====
/-
  One grid step of the kernel, read at one output entry.

  A step holds the whole batch x (32 rows of 4096 numbers), a TILE of 256 rows of the sign matrix and the tile's
  256 · 32 scales. It dequantizes the tile — sign (q, k) times scale (q, k / 128), by viewing the 4096 columns as 32
  groups of 128 and broadcasting each scale along its group — and multiplies x by the transpose of the result. Over
  the extended reals the changes of float format are the identity and the matrix product into a zero accumulator is
  the textbook sum, so entry (p, q) of what the step stores is the sum over k of x (p, k) · sign (q, k) · scale (q, k / 128).
-/
import proofs.«164106_j47141561041541_1_alg».proof.Proof.Gen.KernelIdeal.Skeleton
import proofs.«164106_j47141561041541_1_alg».proof.Proof.LibTransposedRhsDot
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The group of column k: 128 columns to a group, 32 groups. -/
def grp (k : Fin 4096) : Fin 32 := ⟨k.val / 128, by have hk := k.isLt; omega⟩

/-- The place of column k inside its group. -/
def lane (k : Fin 4096) : Fin 128 := ⟨k.val % 128, Nat.mod_lt _ (by decide)⟩

/-- The dequantized tile at (q, k): the tile's sign there, as an integer, times the scale of row q's group k / 128.
    Column k of the flat row is position (k / 128, k % 128) of the grouped row; the scale, given a unit third axis and
    broadcast along it, does not depend on the position inside the group. -/
theorem dequant_apply (x1 : Vec Ideal S256x4096 .i32) (x2 : Vec Ideal S256x32 .f32) (q : Fin 256) (k : Fin 4096) :
    (shapeCast S256x4096 (mulf (shapeCast S256x32x128 (sitofp .f32 x1 : FVec Ideal S256x4096 .f32) shapeCasts_S256x4096_S256x32x128)
        (broadcastTo S256x32x128 (shapeCast S256x32x1 (shapeCast S256x32 x2 shapeCasts_S256x32_S256x32) shapeCasts_S256x32_S256x32x1)
          broadcasts_S256x32x1_S256x32x128)) shapeCasts_S256x32x128_S256x4096 : FVec Ideal S256x4096 .f32) (ix2 q k)
      = FloatOps.sitofp (F := Ideal) .f32 (x1 (ix2 q k)) * x2 (ix2 q (grp k)) := by
  have hq := q.isLt
  have hk := k.isLt
  rw [shapeCast_apply _ shapeCasts_S256x32x128_S256x4096 (ix2 q k) (ix3 q (grp k) (lane k))
    (by rw [Shape.rowMajor_val_three, Shape.rowMajor_val_two]
        show (q.val * 32 + k.val / 128) * 128 + k.val % 128 = q.val * 4096 + k.val
        omega)]
  rw [mulf_apply]
  rw [shapeCast_apply (sitofp .f32 x1 : FVec Ideal S256x4096 .f32) shapeCasts_S256x4096_S256x32x128 (ix3 q (grp k) (lane k)) (ix2 q k)
    (by rw [Shape.rowMajor_val_three, Shape.rowMajor_val_two]
        show q.val * 4096 + k.val = (q.val * 32 + k.val / 128) * 128 + k.val % 128
        omega)]
  rw [broadcastTo_apply _ broadcasts_S256x32x1_S256x32x128 (ix3 q (grp k) (lane k)) (ix3 q (grp k) (0 : Fin 1))
    (fun a => match a with
      | ⟨0, _⟩ => by show q.val = if (256 : Nat) = 1 then 0 else q.val; rw [if_neg (by decide)]
      | ⟨1, _⟩ => by show (grp k).val = if (32 : Nat) = 1 then 0 else (grp k).val; rw [if_neg (by decide)]
      | ⟨2, _⟩ => by show 0 = if (1 : Nat) = 1 then 0 else (lane k).val; rw [if_pos rfl])]
  rw [shapeCast_apply _ shapeCasts_S256x32_S256x32x1 (ix3 q (grp k) (0 : Fin 1)) (ix2 q (grp k))
    (by rw [Shape.rowMajor_val_three, Shape.rowMajor_val_two]
        show q.val * 32 + (grp k).val = (q.val * 32 + (grp k).val) * 1 + 0
        omega)]
  rw [shapeCast_self]
  rfl

/-- WHAT A STEP STORES, at (p, q): the sum over the 4096 input features of x (p, k) times the dequantized weight
    (q, k) of the tile. The printed contraction (left axis 1 against right axis 1) is the product with the transpose. -/
theorem pay_apply (x0 : Vec Ideal S32x4096 .f32) (x1 : Vec Ideal S256x4096 .i32) (x2 : Vec Ideal S256x32 .f32) (p : Fin 32) (q : Fin 256) :
    k0_pay1 (F := Ideal) x0 x1 x2 (ix2 p q)
      = ∑ k : Fin 4096, x0 (ix2 p k) * (FloatOps.sitofp (F := Ideal) .f32 (x1 (ix2 q k)) * x2 (ix2 q (grp k))) := by
  unfold k0_pay1
  refine (Cert.Lib.TransposedRhsDot.matmul_zero_apply 32 4096 256 none _ _ p q).trans ?_
  refine Finset.sum_congr rfl fun k _ => ?_
  rw [truncf_apply, truncf_apply, dequant_apply]

end Cert.KernelIdeal.Tile

end
-- ==== Proof.Spec.lean ====
/-
  A linear layer over one-bit weights, as one function of its three arrays.

  The weight matrix has 11008 rows (output features) and 4096 columns (input features). Entry (o, k) is the stored
  sign word at (o, k), read as a signed integer, times a scale shared by a GROUP of 128 consecutive columns of the
  row: the scales lie in one flat array of 11008 · 32 numbers, the scale of (o, k) at position o · 32 + k / 128. The
  layer sends a batch of 32 input rows x to x · Wᵀ: output (b, o) is the sum over k of x (b, k) · W (o, k), over the
  extended reals.
-/
import Idealize.ShloMosaic.PureOps.Ideal
import Idealize.ShloMosaic.Lib.ValueIdx

noncomputable section

namespace Cert.BitLinear

open Idealize.ShloMosaic Idealize.ShloMosaic.ValueIdx

/-- Where the scale of weight (o, k) lies in the flat array of scales: 32 groups to a row, 128 columns to a group. -/
def scaleAt (o : Fin 11008) (k : Fin 4096) : Fin 352256 :=
  ⟨o.val * 32 + k.val / 128, by have ho := o.isLt; have hk := k.isLt; omega⟩

/-- The dequantized weight (o, k): the sign word as an integer, times its group's scale. -/
def weight (scales : FVec Ideal ⟨1, ![352256]⟩ .f32) (signs : IVec ⟨2, ![11008, 4096]⟩ 32) (o : Fin 11008) (k : Fin 4096) : EReal :=
  FloatOps.sitofp (F := Ideal) .f32 (signs (ix2 o k)) * scales (ix1 (scaleAt o k))

/-- The layer: output (b, o) is the sum over the 4096 input features k of x (b, k) · weight (o, k). -/
def linear (x : FVec Ideal ⟨2, ![32, 4096]⟩ .f32) (scales : FVec Ideal ⟨1, ![352256]⟩ .f32) (signs : IVec ⟨2, ![11008, 4096]⟩ 32) :
    FVec Ideal ⟨2, ![32, 11008]⟩ .f32 :=
  fun i => ∑ k : Fin 4096, x (ix2 (i 0) k) * weight scales signs (i 1) k

end Cert.BitLinear

end
-- ==== Proof.KernelValue.lean ====
/-
  The kernel's output array after its 43 grid steps is the layer of Spec.lean.

  Step t holds the whole batch, rows t · 256 … t · 256 + 255 of the sign matrix and the same rows of the scales
  viewed as an 11008 × 32 matrix (entry (r, g) of that view is flat scale r · 32 + g), and writes columns
  t · 256 … t · 256 + 255 of the 32 × 11008 output. So what step t stores at (p, q) — the sum over k of
  x (p, k) · sign (t · 256 + q, k) · scale ((t · 256 + q) · 32 + k / 128) — is entry (p, t · 256 + q) of the layer, and
  the 43 column blocks tile the output: column o lies in the block of step o / 256.
-/
import proofs.«164106_j47141561041541_1_alg».proof.Proof.Gen.KernelIdeal.Value
import proofs.«164106_j47141561041541_1_alg».proof.Proof.TileValue
import proofs.«164106_j47141561041541_1_alg».proof.Proof.Spec

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.BitLinear

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 43 steps: the batch window stays at block (0, 0); the sign and scale windows are at
    row block t; the output window at column block t. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The scales as the region finds them: the flat array viewed as 11008 rows of 32. -/
theorem scales_view (c : Dev nD) :
    (V m c main_v0 : S11008x32.Idx → EReal) = shapeCast S11008x32 (m ((c : Thread nD τ).loc main_arg1)) shapeCasts_S352256_S11008x32 := by
  dsimp only [Gen.V, Gen.hostOps0]
  after_results
  rfl

/-- Entry (r, g) of that view is flat scale r · 32 + g. -/
theorem scales_view_apply (c : Dev nD) (r : Fin 11008) (g : Fin 32) :
    (V m c main_v0 : S11008x32.Idx → EReal) (ix2 r g)
      = m ((c : Thread nD τ).loc main_arg1) (ix1 ⟨r.val * 32 + g.val, by have hr := r.isLt; have hg := g.isLt; omega⟩) := by
  rw [scales_view]
  exact shapeCast_apply _ shapeCasts_S352256_S11008x32 _ _
    (by rw [Shape.rowMajor_val_one, Shape.rowMajor_val_two]; rfl)

/-- A STEP'S STORE IS A COLUMN BLOCK OF THE LAYER: if the step's three loaded blocks are the whole batch, rows
    T · 256 + q of the signs and rows T · 256 + q of the scale view, then what it stores at (p, q) is the layer at
    (p, T · 256 + q). -/
theorem tile_eq (x0 : Vec Ideal S32x4096 .f32) (x1 : Vec Ideal S256x4096 .i32) (x2 : Vec Ideal S256x32 .f32)
    (X : FVec Ideal ⟨2, ![32, 4096]⟩ .f32) (SC : FVec Ideal ⟨1, ![352256]⟩ .f32) (SG : IVec ⟨2, ![11008, 4096]⟩ 32)
    (T : Nat) (hT : T < 43)
    (h0 : ∀ (p : Fin 32) (k : Fin 4096), x0 (ix2 p k) = X (ix2 p k))
    (h1 : ∀ (q : Fin 256) (k : Fin 4096), x1 (ix2 q k) = SG (ix2 ⟨T * 256 + q.val, by have hq := q.isLt; omega⟩ k))
    (h2 : ∀ (q : Fin 256) (g : Fin 32), x2 (ix2 q g)
      = SC (ix1 ⟨(T * 256 + q.val) * 32 + g.val, by have hq := q.isLt; have hg := g.isLt; omega⟩))
    (p : Fin 32) (q : Fin 256) :
    k0_pay1 (F := Ideal) x0 x1 x2 (ix2 p q) = linear X SC SG (ix2 p ⟨T * 256 + q.val, by have hq := q.isLt; omega⟩) := by
  rw [Tile.pay_apply]
  refine Finset.sum_congr rfl fun k _ => ?_
  rw [h0, h1, h2]
  rfl

/-- WHAT STEP t WRITES BACK is block t of the layer of the argument arrays. -/
theorem flushed_eq (c : Dev nD) (t : Fin cfg0.N) :
    (dats m 0 c).flushed 3 t = ((cfg0.win 3).blk t).view.read (Elt Ideal)
      (linear (m ((c : Thread nD τ).loc main_arg0)) (m ((c : Thread nD τ).loc main_arg1)) (m ((c : Thread nD τ).loc main_arg2))) := by
  rw [flushed3]
  unfold out0_3
  rw [View.canon_unit_zero hz]
  simp only [View.ld_unit_zero (S := S32x4096) hz, View.ld_unit_zero (S := S256x4096) hz, View.ld_unit_zero (S := S256x32) hz]
  obtain ⟨e00, e01, e10, e11, e20, e21, e30, e31⟩ := idx_facts t
  have ht : t.val < 43 := t.isLt.trans_eq N_0
  funext (j : S32x256.Idx)
  obtain ⟨p, q, rfl⟩ : ∃ (p : Fin 32) (q : Fin 256), j = ix2 p q := ⟨j 0, j 1, eq_ix2 j⟩
  show k0_pay1 (F := Ideal) (iblk m c 0 t) (iblk m c 1 t) (iblk m c 2 t) (ix2 p q)
    = linear (m ((c : Thread nD τ).loc main_arg0)) (m ((c : Thread nD τ).loc main_arg1)) (m ((c : Thread nD τ).loc main_arg2))
        (((cfg0.win 3).blk t).view.emb (ix2 p q))
  refine (tile_eq (iblk m c 0 t) (iblk m c 1 t) (iblk m c 2 t) (m ((c : Thread nD τ).loc main_arg0))
    (m ((c : Thread nD τ).loc main_arg1)) (m ((c : Thread nD τ).loc main_arg2)) t.val ht ?_ ?_ ?_ p q).trans ?_
  · intro p k
    show V m c main_arg0 (((cfg0.win 0).blk t).view.emb (ix2 p k)) = _
    rw [V_main_arg0]
    refine congrArg _ (funext fun a => Fin.ext ?_)
    match a with
    | ⟨0, _⟩ => show win0_0.index t (0 : Fin 2) * 32 + 1 * p.val = p.val; omega
    | ⟨1, _⟩ => show win0_0.index t (1 : Fin 2) * 4096 + 1 * k.val = k.val; omega
  · intro q k
    show V m c main_arg2 (((cfg0.win 1).blk t).view.emb (ix2 q k)) = _
    rw [V_main_arg2]
    refine congrArg _ (funext fun a => Fin.ext ?_)
    match a with
    | ⟨0, _⟩ => show win0_1.index t (0 : Fin 2) * 256 + 1 * q.val = t.val * 256 + q.val; omega
    | ⟨1, _⟩ => show win0_1.index t (1 : Fin 2) * 4096 + 1 * k.val = k.val; omega
  · intro q g
    show V m c main_v0 (((cfg0.win 2).blk t).view.emb (ix2 q g)) = _
    have hq := q.isLt
    have e : ((cfg0.win 2).blk t).view.emb (ix2 q g) = ix2 (⟨t.val * 256 + q.val, by omega⟩ : Fin 11008) g :=
      funext fun a => Fin.ext (by
        match a with
        | ⟨0, _⟩ => show win0_2.index t (0 : Fin 2) * 256 + 1 * q.val = t.val * 256 + q.val; omega
        | ⟨1, _⟩ => show win0_2.index t (1 : Fin 2) * 32 + 1 * g.val = g.val; omega)
    rw [e]
    exact scales_view_apply m c _ g
  · refine congrArg _ (funext fun a => Fin.ext ?_)
    match a with
    | ⟨0, _⟩ => show p.val = win0_3.index t (0 : Fin 2) * 32 + 1 * p.val; omega
    | ⟨1, _⟩ => show t.val * 256 + q.val = win0_3.index t (1 : Fin 2) * 256 + 1 * q.val; omega

/-- An index of the output is in step t's block iff each coordinate is in the block's range on its axis. -/
theorem mem_blk (t : Fin cfg0.N) (i : S32x11008.Idx) :
    i ∈ ((cfg0.win 3).blk t).view.set ↔ ∀ a : Fin 2, win0_3.index t a * S32x256.size a ≤ (i a).val
      ∧ (i a).val < win0_3.index t a * S32x256.size a + S32x256.size a := by
  show i ∈ ((View.whole main_v1).slice (win0_3.rect t)).set ↔ _
  rw [View.set_slice_whole, Rect.mem_set_unit]
  exact Iff.rfl

/-- THE COLUMN BLOCKS TILE THE OUTPUT: column o is written by step o / 256. -/
theorem cover (i : S32x11008.Idx) : ∃ t : Fin cfg0.N, (cfg0.win 3).flush t = true ∧ i ∈ ((cfg0.win 3).blk t).view.set := by
  have hi0 : (i 0).val < 32 := (i 0).isLt
  have hi1 : (i 1).val < 11008 := (i 1).isLt
  let t : Fin cfg0.N := ⟨(i 1).val / 256, (show (i 1).val / 256 < 43 by omega).trans_eq N_0.symm⟩
  obtain ⟨e00, e01, e10, e11, e20, e21, e30, e31⟩ := idx_facts t
  have e31' : win0_3.index t (1 : Fin 2) = (i 1).val / 256 := e31
  refine ⟨t, flush0_3 t, ?_⟩
  rw [mem_blk]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 256 ≤ (i 1).val ∧ (i 1).val < win0_3.index t (1 : Fin 2) * 256 + 256; omega

/-- THE OUTPUT ARRAY after the run is the layer of the argument arrays. -/
theorem final (c : Dev nD) : (dats m 0 c).arrAt 3 cfg0.N
    = linear (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v1)
        = linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefValue.lean ====
/-
  The reference, read at one output entry, is the layer of Spec.lean.

  The reference converts the whole sign matrix to floats, views its 4096 columns as 32 groups of 128, multiplies by
  the scales (reshaped to 11008 × 32 and broadcast along each group), flattens back, transposes and contracts the
  batch against the result. Read at (b, o): the contraction is the sum over k of x (b, k) times the transposed
  weight at (k, o), which is the flat weight at (o, k); flat position (o, k) is grouped position (o, k / 128, k % 128),
  whose sign is the sign at (o, k) and whose scale is entry o · 32 + k / 128 of the flat scales.
-/
import proofs.«164106_j47141561041541_1_alg».proof.Proof.Gen.ReferenceIdeal.Read
import proofs.«164106_j47141561041541_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.BitLinear

/-- The left factor of term k at output (b, o) is x (b, k). -/
theorem lidx_eq (i : S32x11008.Idx) (k : Fin 4096) : lidx_main_v8 i k = ix2 (i 0) k :=
  funext fun a => Fin.ext (by match a with | ⟨0, _⟩ => rfl | ⟨1, _⟩ => rfl)

/-- Through the transpose, the flattening and the grouping, the sign read for term k at output (b, o) is the sign
    at (o, k): (o · 4096 + k) / 4096 = o, and ((o · 32 + k / 128) · 128 + k % 128) % 4096 = k. -/
theorem sign_idx_eq (i : S32x11008.Idx) (k : Fin 4096) :
    idx_main_v1 (idx_main_v6 (idx_main_v7 (ridx_main_v8 i k))) = ix2 (i 1) k :=
  funext fun a => Fin.ext (by
    have ho : (i 1).val < 11008 := (i 1).isLt
    have hk := k.isLt
    match a with
    | ⟨0, _⟩ =>
      show ((((i 1).val * 4096 + k.val) / 4096 * 32 + ((i 1).val * 4096 + k.val) / 128 % 32) * 128 + ((i 1).val * 4096 + k.val) % 128) / 4096 = (i 1).val
      omega
    | ⟨1, _⟩ =>
      show ((((i 1).val * 4096 + k.val) / 4096 * 32 + ((i 1).val * 4096 + k.val) / 128 % 32) * 128 + ((i 1).val * 4096 + k.val) % 128) % 4096 = k.val
      omega)

/-- And the scale read there is the flat scale at o · 32 + k / 128. -/
theorem scale_idx_eq (i : S32x11008.Idx) (k : Fin 4096) :
    idx_main_v2 (idx_main_v3 (idx_main_v4 (idx_main_v6 (idx_main_v7 (ridx_main_v8 i k))))) = ix1 (scaleAt (i 1) k) :=
  funext fun a => Fin.ext (by
    have ho : (i 1).val < 11008 := (i 1).isLt
    have hk := k.isLt
    match a with
    | ⟨0, _⟩ =>
      show ((i 1).val * 4096 + k.val) / 4096 * 32 + ((i 1).val * 4096 + k.val) / 128 % 32 = (i 1).val * 32 + k.val / 128
      omega)

/-- THE REFERENCE'S RESULT is the layer, entry by entry. -/
theorem result_eq (x0 : (⟨S32x4096, .f32⟩ : BufTy).Contents (Elt Ideal)) (x1 : (⟨S352256, .f32⟩ : BufTy).Contents (Elt Ideal))
    (x2 : (⟨S11008x4096, .i32⟩ : BufTy).Contents (Elt Ideal)) :
    val_main_v8 (F := Ideal) x0 x1 x2 = linear x0 x1 x2 := by
  funext i
  rw [val_main_v8_apply]
  refine Finset.sum_congr rfl fun k _ => ?_
  rw [lidx_eq, val_main_v7_apply, val_main_v6_apply, val_main_v5_apply, val_main_v1_apply, val_main_v0_apply,
    val_main_v4_apply, val_main_v3_apply, val_main_v2_apply, sign_idx_eq, scale_idx_eq]
  rfl

end Cert.ReferenceIdeal.RefValue

end
-- ==== Proof.lean ====
/-
  A linear layer over one-bit weights: a Pallas kernel against its jnp reference, over the extended reals.

  Both programs compute, for a batch x of 32 rows, y (b, o) = Σ_k x (b, k) · W (o, k), where the 11008 × 4096 weight
  W (o, k) is the sign word at (o, k), read as an integer, times the scale of its group of 128 columns, scale
  o · 32 + k / 128 of the flat scale array (Proof/Spec.lean, `linear`).

  The kernel walks 43 tiles of 256 output features. A step dequantizes its tile of signs and scales, narrows both
  operands to bf16 — the identity on extended reals — and contracts x against the tile on both last axes into a zero
  accumulator: the textbook sum (Proof/TileValue.lean). Its 43 column blocks tile the output (Proof/KernelValue.lean).
  The reference dequantizes the whole matrix, transposes it and contracts once; read at one entry it is the same sum
  of the same products in the same order (Proof/RefValue.lean). No law of arithmetic is needed beyond that, so the
  finiteness of the inputs is never used.

  The idealized kernel is the kernel's own text read over the extended reals (no operation was rewritten), so
  `preserves` is trivial.
-/
import proofs.«164106_j47141561041541_1_alg».proof.Defs
import proofs.«164106_j47141561041541_1_alg».proof.Proof.Gen.Kernel
import proofs.«164106_j47141561041541_1_alg».proof.Proof.Gen.Kernel.Skeleton
import proofs.«164106_j47141561041541_1_alg».proof.Proof.Gen.Kernel.Launch
import proofs.«164106_j47141561041541_1_alg».proof.Proof.Gen.Kernel.Points
import proofs.«164106_j47141561041541_1_alg».proof.Proof.Gen.Kernel.Frame
import proofs.«164106_j47141561041541_1_alg».proof.Proof.Gen.KernelIdeal
import proofs.«164106_j47141561041541_1_alg».proof.Proof.Gen.KernelIdeal.Skeleton
import proofs.«164106_j47141561041541_1_alg».proof.Proof.Gen.KernelIdeal.Launch
import proofs.«164106_j47141561041541_1_alg».proof.Proof.Gen.KernelIdeal.Points
import proofs.«164106_j47141561041541_1_alg».proof.Proof.Gen.KernelIdeal.Frame
import proofs.«164106_j47141561041541_1_alg».proof.Proof.Gen.ReferenceIdeal
import proofs.«164106_j47141561041541_1_alg».proof.Proof.Gen.Pre_finite_inputs
import proofs.«164106_j47141561041541_1_alg».proof.Proof.Gen.KernelIdeal.Value
import proofs.«164106_j47141561041541_1_alg».proof.Proof.Gen.ReferenceIdeal.Run
import proofs.«164106_j47141561041541_1_alg».proof.Proof.Gen.ReferenceIdeal.Read
import proofs.«164106_j47141561041541_1_alg».proof.Proof.KernelValue
import proofs.«164106_j47141561041541_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer of the (agreeing) argument arrays in their result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
